-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S2000x128 : Shape := ⟨2, ![2000, 128]⟩
abbrev S128x64 : Shape := ⟨2, ![128, 64]⟩
abbrev S1x64 : Shape := ⟨2, ![1, 64]⟩
abbrev S100000x64 : Shape := ⟨2, ![100000, 64]⟩
abbrev S2000x64 : Shape := ⟨2, ![2000, 64]⟩

abbrev nBuf : Space → Nat
  | .hbm => 70
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S128x64, .f32⟩
  | .hbm, ⟨67, _⟩ => ⟨S128x64, .f32⟩
  | .hbm, ⟨68, _⟩ => ⟨S1x64, .f32⟩
  | .hbm, ⟨69, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S128x64, .f32⟩
  | .hbm, ⟨79, _⟩ => ⟨S100000x64, .f32⟩
  | .hbm, ⟨80, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Region0.lean ====
/-
  The first layer's kernel region (the two dense products after the neighbour mean), read as values at the ideal instance.
  The region's grid has 50 points; point `t` sees rows `2000 t … 2000 t + 1999` of the two row operands (the neighbour
  mean and the features), the two transposed weights and the bias row whole, and writes rows `2000 t …` of the result.
  Written here: the body's stored value at a row `p` and column `q` of the block is
  `max ((Σ_k mean[p,k]·wl[k,q] + Σ_k x[p,k]·wr[k,q]) + b[0,q]) 0` (`pay_apply`), each block read is the array read at the
  shifted row (`iblk_row`, `iblk_whole…`), hence what a point writes back is its block of ONE function `lay` of the five
  arrays (`flushed_eq`); the 50 blocks tile the result (`cover`), so after the region the result array is `lay` of the
  arrays the region found (`final`).
-/
import proofs.«129132_j58969900974302_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen
open Idealize.ShloMosaic Idealize.ShloMosaic.TcCoe Idealize.SL.Sem Idealize.ShloMosaic.ValueIdx
open Idealize.ShloMosaic.Pipeline (Dat)

/-! ## The block product at an index -/

abbrev D := dot_S2000x128_S128x128_S2000x128_1_0_0_1_n_n

theorem lhs_D_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_D_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_D_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_D_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator, at row `p` and column `q`: the sum over the inner axis. -/
theorem mm_apply (a : FVec Ideal S2000x128 .bf16) (w : FVec Ideal S128x128 .bf16) (p : Fin 2000) (q : Fin 128) :
    matmul dot_S2000x128_S128x128_S2000x128_1_0_0_1_n_n none a w (constant S2000x128 .f32 0x00000000#32) (ix2 p q)
      = ∑ k : Fin 128, a (ix2 p k) * w (ix2 k q) := by
  refine (Ideal.matmul_constant_zero_apply dot_S2000x128_S128x128_S2000x128_1_0_0_1_n_n none a w (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_D_0 _ _
    | ⟨1, _⟩ => exact (lhs_D_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_D_0 _ _).trans hk
    | ⟨1, _⟩ => exact rhs_D_1 _ _)
  rw [el, er]

/-- The bias row spread over the block's rows, at row `p` and column `q`. -/
theorem bias_apply (b : FVec Ideal S1x128 .f32) (p : Fin 2000) (q : Fin 128) :
    broadcastTo S2000x128 b broadcasts_S1x128_S2000x128 (ix2 p q) = b (ix2 0 q) :=
  broadcastTo_apply b broadcasts_S1x128_S2000x128 (ix2 p q) (ix2 0 q) (fun a => by
    match a with
    | ⟨0, _⟩ => rfl
    | ⟨1, _⟩ => rfl)

/-- The body's stored value at row `p` and column `q` of the block. -/
theorem pay_apply (x0 x1 : Vec Ideal S2000x128 .f32) (x2 x3 : Vec Ideal S128x128 .f32) (x4 : Vec Ideal S1x128 .f32) (p : Fin 2000) (q : Fin 128) :
    k0_pay1 (F := Ideal) x0 x1 x2 x3 x4 (ix2 p q)
      = max ((∑ k : Fin 128, x0 (ix2 p k) * x2 (ix2 k q) + ∑ k : Fin 128, x1 (ix2 p k) * x3 (ix2 k q)) + x4 (ix2 0 q))
          (Ideal.ofBits .f32 0x00000000#32) := by
  unfold k0_pay1
  rw [maximumf_apply, addf_apply, addf_apply, mm_apply, mm_apply, bias_apply]
  simp only [shapeCast_self, truncf_apply, broadcast_apply]
  rfl

/-! ## One function of the five arrays -/

/-- The layer at row `r` and column `q`: both products summed over the inner axis, added, the bias added, the rectifier. -/
def layAt (mean x : S100000x128.Idx → EReal) (wl wr : S128x128.Idx → EReal) (b : S1x128.Idx → EReal) (r : Fin 100000) (q : Fin 128) : EReal :=
  max ((∑ k : Fin 128, mean (ix2 r k) * wl (ix2 k q) + ∑ k : Fin 128, x (ix2 r k) * wr (ix2 k q)) + b (ix2 0 q))
    (Ideal.ofBits .f32 0x00000000#32)

/-- The layer as one function of the whole arrays. -/
def lay (mean x : S100000x128.Idx → EReal) (wl wr : S128x128.Idx → EReal) (b : S1x128.Idx → EReal) : S100000x128.Idx → EReal :=
  fun i => layAt mean x wl wr b ⟨(i 0).val, (i 0).isLt⟩ ⟨(i 1).val, (i 1).isLt⟩

theorem hz : (![0, 0] : Fin 2 → Nat) = fun _ => 0 := funext fun a => by fin_cases a <;> rfl

/-- Two functions on a block agree when they agree at every row and column. -/
theorem block_ext (f g : S2000x128.Idx → EReal) (h : ∀ (p : Fin 2000) (q : Fin 128), f (ix2 p q) = g (ix2 p q)) : f = g :=
  funext fun j => by rw [eq_ix2 j]; exact h _ _

/-- The printed index maps, decided over the 50 points: the row operands and the result move one block of rows per point,
    the weights and the bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Reads
variable (V : (c : Dev nD) → (b : Ref sig .tc) → Buf (Elt Ideal) ((c : Thread nD τ).loc b))

/-- The mean operand's block at point `t`, row `p`: the array's row `2000 t + p`. -/
theorem iblk_0 (c : Dev nD) (t : Fin cfg0.N) (p : Fin 2000) (k : Fin 128) (r : Fin 100000) (hr : r.val = 2000 * t.val + p.val) :
    (iblk0 V c 0 t : Vec Ideal S2000x128 .f32) (ix2 p k) = (V c main_v22 : S100000x128.Idx → EReal) (ix2 r k) := by
  obtain ⟨e0, e1, -⟩ := idx_facts t
  unfold iblk0
  rw [View.read_apply]
  show V c main_v22 _ = V c main_v22 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The feature operand's block at point `t`, row `p`: the array's row `2000 t + p`. -/
theorem iblk_1 (c : Dev nD) (t : Fin cfg0.N) (p : Fin 2000) (k : Fin 128) (r : Fin 100000) (hr : r.val = 2000 * t.val + p.val) :
    (iblk0 V c 1 t : Vec Ideal S2000x128 .f32) (ix2 p k) = (V c main_arg0 : S100000x128.Idx → EReal) (ix2 r k) := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t (0 : Fin 2) * 2000 + 1 * p.val = r.val; rw [e0, hr]; omega
  | ⟨1, _⟩ => show win0_1.index t (1 : Fin 2) * 128 + 1 * k.val = k.val; rw [e1]; omega

/-- The first weight's block is the whole array at every point. -/
theorem iblk_2 (c : Dev nD) (t : Fin cfg0.N) (k : Fin 128) (q : Fin 128) :
    (iblk0 V c 2 t : Vec Ideal S128x128 .f32) (ix2 k q) = (V c main_v23 : S128x128.Idx → EReal) (ix2 k q) := by
  obtain ⟨-, -, -, -, e0, e1, -⟩ := idx_facts t
  unfold iblk0
  rw [View.read_apply]
  show V c main_v23 _ = V c main_v23 _
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The second weight's block is the whole array at every point. -/
theorem iblk_3 (c : Dev nD) (t : Fin cfg0.N) (k : Fin 128) (q : Fin 128) :
    (iblk0 V c 3 t : Vec Ideal S128x128 .f32) (ix2 k q) = (V c main_v24 : S128x128.Idx → EReal) (ix2 k q) := by
  obtain ⟨-, -, -, -, -, -, e0, e1, -⟩ := idx_facts t
  unfold iblk0
  rw [View.read_apply]
  show V c main_v24 _ = V c main_v24 _
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The bias row's block is the whole row at every point. -/
theorem iblk_4 (c : Dev nD) (t : Fin cfg0.N) (q : Fin 128) :
    (iblk0 V c 4 t : Vec Ideal S1x128 .f32) (ix2 0 q) = (V c main_v25 : S1x128.Idx → EReal) (ix2 0 q) := by
  obtain ⟨-, -, -, -, -, -, -, -, e0, e1, -⟩ := idx_facts t
  unfold iblk0
  rw [View.read_apply]
  show V c main_v25 _ = V c main_v25 _
  congr 1
  funext a
  apply Fin.ext
  match a with
  | ⟨0, _⟩ => show win0_4.index t (0 : Fin 2) * 1 + 1 * 0 = 0; rw [e0]
  | ⟨1, _⟩ => show win0_4.index t (1 : Fin 2) * 128 + 1 * q.val = q.val; rw [e1]; omega

/-- WHAT POINT `t` WRITES BACK is its block of `lay` of the five arrays as the region finds them. -/
theorem flushed_eq (c : Dev nD) (t : Fin cfg0.N) :
    (dat0 V c).flushed 5 t = ((cfg0.win 5).blk t).view.read (Elt Ideal)
      (lay (V c main_v22) (V c main_arg0) (V c main_v23) (V c main_v24) (V c main_v25)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  refine block_ext _ _ fun p q => ?_
  have ht : t.val < 50 := lt_of_lt_of_eq t.isLt N_0
  obtain ⟨-, -, -, -, -, -, -, -, -, -, e0, e1⟩ := idx_facts t
  have hr : (⟨2000 * t.val + p.val, by have := p.isLt; omega⟩ : Fin 100000).val = 2000 * t.val + p.val := rfl
  refine (pay_apply _ _ _ _ _ p q).trans ?_
  rw [View.read_apply]
  have hemb : lay (V c main_v22) (V c main_arg0) (V c main_v23) (V c main_v24) (V c main_v25) (((cfg0.win 5).blk t).view.emb (ix2 p q))
      = layAt (V c main_v22) (V c main_arg0) (V c main_v23) (V c main_v24) (V c main_v25) ⟨2000 * t.val + p.val, by have := p.isLt; omega⟩ q := by
    unfold lay
    congr 1 <;> apply Fin.ext
    · show win0_5.index t (0 : Fin 2) * 2000 + 1 * p.val = 2000 * t.val + p.val; rw [e0]; omega
    · show win0_5.index t (1 : Fin 2) * 128 + 1 * q.val = q.val; rw [e1]; omega
  refine Eq.trans ?_ hemb.symm
  unfold layAt
  refine congrArg₂ max (congrArg₂ (· + ·) (congrArg₂ (· + ·) (Finset.sum_congr rfl fun k _ => ?_) (Finset.sum_congr rfl fun k _ => ?_)) ?_) rfl
  · exact congrArg₂ (· * ·) (iblk_0 V c t p k _ hr) (iblk_2 V c t k q)
  · exact congrArg₂ (· * ·) (iblk_1 V c t p k _ hr) (iblk_3 V c t k q)
  · exact iblk_4 V c t q

/-- The 50 blocks of 2000 rows tile the result array. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, -, -, -, -, e0, e1⟩ := idx_facts t
  refine ⟨t, flush0_5 t, ?_⟩
  show i ∈ ((View.whole main_v26).slice (win0_5.rect t)).set
  rw [View.set_slice_whole, Rect.mem_set_unit]
  intro a
  match a with
  | ⟨0, _⟩ => show win0_5.index t (0 : Fin 2) * 2000 ≤ (i 0).val ∧ (i 0).val < win0_5.index t (0 : Fin 2) * 2000 + 2000; rw [e0, ht]; omega
  | ⟨1, _⟩ => show win0_5.index t (1 : Fin 2) * 128 ≤ (i 1).val ∧ (i 1).val < win0_5.index t (1 : Fin 2) * 128 + 128; rw [e1]; omega

/-- THE RESULT ARRAY after the region: `lay` of the five arrays the region found. -/
theorem final (c : Dev nD) : (dat0 V c).arrAt 5 cfg0.N
    = lay (V c main_v22) (V c main_arg0) (V c main_v23) (V c main_v24) (V c main_v25) :=
  (dat0 V c).arrAt_eq_of_cover 5 _ (fun t _ => flushed_eq V c t) cover

end Reads

end Cert.KernelIdeal.Layer1

end
-- ==== Proof.Region1.lean ====
/-
  The second layer's kernel region (the two dense products after the second neighbour mean), read as values at the ideal
  instance. The grid again has 50 points; point `t` sees rows `2000 t … 2000 t + 1999` of the two row operands (the mean
  of the hidden features and the hidden features), the two transposed [128, 64] weights and the bias row whole, and writes
  rows `2000 t …` of the [100000, 64] result. There is no rectifier here: the stored value at row `p`, column `q` of the
  block is `(Σ_k mean[p,k]·wl[k,q] + Σ_k h[p,k]·wr[k,q]) + b[0,q]` (`pay_apply`); block reads (`iblk_…`), what a point
  writes back (`flushed_eq`), the tiling (`cover`) and the result array after the region (`final`) go as in the first layer.
-/
import proofs.«129132_j58969900974302_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer2

open Cert.KernelIdeal Cert.KernelIdeal.Gen
open Idealize.ShloMosaic Idealize.ShloMosaic.TcCoe Idealize.SL.Sem Idealize.ShloMosaic.ValueIdx
open Idealize.ShloMosaic.Pipeline (Dat)

/-! ## The block product at an index -/

abbrev D := dot_S2000x128_S128x64_S2000x64_1_0_0_1_n_n

theorem lhs_D_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_D_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs_D_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs_D_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The block product into a zero accumulator, at row `p` and column `q`: the sum over the inner axis. -/
theorem mm_apply (a : FVec Ideal S2000x128 .bf16) (w : FVec Ideal S128x64 .bf16) (p : Fin 2000) (q : Fin 64) :
    matmul dot_S2000x128_S128x64_S2000x64_1_0_0_1_n_n none a w (constant S2000x64 .f32 0x00000000#32) (ix2 p q)
      = ∑ k : Fin 128, a (ix2 p k) * w (ix2 k q) := by
  refine (Ideal.matmul_constant_zero_apply dot_S2000x128_S128x64_S2000x64_1_0_0_1_n_n none a w (ix2 p q)).trans ?_
  rw [← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 p q) ((ValueIdx.contrEquiv1 dot_S2000x128_S128x64_S2000x64_1_0_0_1_n_n 128 rfl rfl).symm k) = ix2 p k := funext fun a => Fin.ext (by
    match a with
    | ⟨0, _⟩ => exact lhs_D_0 _ _
    | ⟨1, _⟩ => exact (lhs_D_1 _ _).trans hk)
  have er : dot_S2000x128_S128x64_S2000x64_1_0_0_1_n_n.rhsIdx (ix2 p q) ((ValueIdx.contrEquiv1 dot_S2000x128_S128x64_S2000x64_1_0_0_1_n_n 128 rfl rfl).symm k) = ix2 k q := funext fun a => Fin.ext (by
    match a with
    | ⟨0, _⟩ => exact (rhs_D_0 _ _).trans hk
    | ⟨1, _⟩ => exact rhs_D_1 _ _)
  rw [el, er]

/-- The bias row spread over the block's rows, at row `p` and column `q`. -/
theorem bias_apply (b : FVec Ideal S1x64 .f32) (p : Fin 2000) (q : Fin 64) :
    broadcastTo S2000x64 b broadcasts_S1x64_S2000x64 (ix2 p q) = b (ix2 0 q) :=
  broadcastTo_apply b broadcasts_S1x64_S2000x64 (ix2 p q) (ix2 0 q) (fun a => by
    match a with
    | ⟨0, _⟩ => rfl
    | ⟨1, _⟩ => rfl)

/-- The body's stored value at row `p` and column `q` of the block. -/
theorem pay_apply (x0 x1 : Vec Ideal S2000x128 .f32) (x2 x3 : Vec Ideal S128x64 .f32) (x4 : Vec Ideal S1x64 .f32) (p : Fin 2000) (q : Fin 64) :
    k1_pay1 (F := Ideal) x0 x1 x2 x3 x4 (ix2 p q)
      = (∑ k : Fin 128, x0 (ix2 p k) * x2 (ix2 k q) + ∑ k : Fin 128, x1 (ix2 p k) * x3 (ix2 k q)) + x4 (ix2 0 q) := by
  unfold k1_pay1
  rw [addf_apply, addf_apply, mm_apply, mm_apply, bias_apply]
  simp only [shapeCast_self, truncf_apply]

/-! ## One function of the five arrays -/

/-- The layer at row `r` and column `q`: both products summed over the inner axis, added, the bias added. -/
def layAt (mean x : S100000x128.Idx → EReal) (wl wr : S128x64.Idx → EReal) (b : S1x64.Idx → EReal) (r : Fin 100000) (q : Fin 64) : EReal :=
  (∑ k : Fin 128, mean (ix2 r k) * wl (ix2 k q) + ∑ k : Fin 128, x (ix2 r k) * wr (ix2 k q)) + b (ix2 0 q)

/-- The layer as one function of the whole arrays. -/
def lay (mean x : S100000x128.Idx → EReal) (wl wr : S128x64.Idx → EReal) (b : S1x64.Idx → EReal) : S100000x64.Idx → EReal :=
  fun i => layAt mean x wl wr b ⟨(i 0).val, (i 0).isLt⟩ ⟨(i 1).val, (i 1).isLt⟩

theorem hz : (![0, 0] : Fin 2 → Nat) = fun _ => 0 := funext fun a => by fin_cases a <;> rfl

/-- Two functions on a block agree when they agree at every row and column. -/
theorem block_ext (f g : S2000x64.Idx → EReal) (h : ∀ (p : Fin 2000) (q : Fin 64), f (ix2 p q) = g (ix2 p q)) : f = g :=
  funext fun j => by rw [eq_ix2 j]; exact h _ _

/-- The printed index maps of the second region, decided over its 50 points: the row operands and the result move one
    block of rows per point, the weights and the bias stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section Reads
variable (V : (c : Dev nD) → (b : Ref sig .tc) → Buf (Elt Ideal) ((c : Thread nD τ).loc b))

/-- The block of the hidden features' neighbour mean at point `t`, row `p`: the array's row `2000 t + p`. -/
theorem iblk_0 (c : Dev nD) (t : Fin cfg1.N) (p : Fin 2000) (k : Fin 128) (r : Fin 100000) (hr : r.val = 2000 * t.val + p.val) :
    (iblk1 V c 0 t : Vec Ideal S2000x128 .f32) (ix2 p k) = (V c main_v45 : S100000x128.Idx → EReal) (ix2 r k) := by
  obtain ⟨e0, e1, -⟩ := idx_facts t
  unfold iblk1
  rw [View.read_apply]
  show V c main_v45 _ = V c main_v45 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- The hidden features' block at point `t`, row `p`: the array's row `2000 t + p`. -/
theorem iblk_1 (c : Dev nD) (t : Fin cfg1.N) (p : Fin 2000) (k : Fin 128) (r : Fin 100000) (hr : r.val = 2000 * t.val + p.val) :
    (iblk1 V c 1 t : Vec Ideal S2000x128 .f32) (ix2 p k) = (V c main_v26 : S100000x128.Idx → EReal) (ix2 r k) := by
  obtain ⟨-, -, e0, e1, -⟩ := idx_facts t
  unfold iblk1
  rw [View.read_apply]
  show V c main_v26 _ = V c main_v26 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 128 + 1 * k.val = k.val; rw [e1]; omega

/-- The first weight's block is the whole array at every point. -/
theorem iblk_2 (c : Dev nD) (t : Fin cfg1.N) (k : Fin 128) (q : Fin 64) :
    (iblk1 V c 2 t : Vec Ideal S128x64 .f32) (ix2 k q) = (V c main_v46 : S128x64.Idx → EReal) (ix2 k q) := by
  obtain ⟨-, -, -, -, e0, e1, -⟩ := idx_facts t
  unfold iblk1
  rw [View.read_apply]
  show V c main_v46 _ = V c main_v46 _
  congr 1
  funext a
  apply Fin.ext
  match a with
  | ⟨0, _⟩ => show win1_2.index t (0 : Fin 2) * 128 + 1 * k.val = k.val; rw [e0]; omega
  | ⟨1, _⟩ => show win1_2.index t (1 : Fin 2) * 64 + 1 * q.val = q.val; rw [e1]; omega

/-- The second weight's block is the whole array at every point. -/
theorem iblk_3 (c : Dev nD) (t : Fin cfg1.N) (k : Fin 128) (q : Fin 64) :
    (iblk1 V c 3 t : Vec Ideal S128x64 .f32) (ix2 k q) = (V c main_v47 : S128x64.Idx → EReal) (ix2 k q) := by
  obtain ⟨-, -, -, -, -, -, e0, e1, -⟩ := idx_facts t
  unfold iblk1
  rw [View.read_apply]
  show V c main_v47 _ = V c main_v47 _
  congr 1
  funext a
  apply Fin.ext
  match a with
  | ⟨0, _⟩ => show win1_3.index t (0 : Fin 2) * 128 + 1 * k.val = k.val; rw [e0]; omega
  | ⟨1, _⟩ => show win1_3.index t (1 : Fin 2) * 64 + 1 * q.val = q.val; rw [e1]; omega

/-- The bias row's block is the whole row at every point. -/
theorem iblk_4 (c : Dev nD) (t : Fin cfg1.N) (q : Fin 64) :
    (iblk1 V c 4 t : Vec Ideal S1x64 .f32) (ix2 0 q) = (V c main_v48 : S1x64.Idx → EReal) (ix2 0 q) := by
  obtain ⟨-, -, -, -, -, -, -, -, e0, e1, -⟩ := idx_facts t
  unfold iblk1
  rw [View.read_apply]
  show V c main_v48 _ = V c main_v48 _
  congr 1
  funext a
  apply Fin.ext
  match a with
  | ⟨0, _⟩ => show win1_4.index t (0 : Fin 2) * 1 + 1 * 0 = 0; rw [e0]
  | ⟨1, _⟩ => show win1_4.index t (1 : Fin 2) * 64 + 1 * q.val = q.val; rw [e1]; omega

/-- WHAT POINT `t` WRITES BACK is its block of `lay` of the five arrays as the region finds them. -/
theorem flushed_eq (c : Dev nD) (t : Fin cfg1.N) :
    (dat1 V c).flushed 5 t = ((cfg1.win 5).blk t).view.read (Elt Ideal)
      (lay (V c main_v45) (V c main_v26) (V c main_v46) (V c main_v47) (V c main_v48)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x64) hz, View.ld_unit_zero (S := S1x64) hz]
  refine block_ext _ _ fun p q => ?_
  have ht : t.val < 50 := lt_of_lt_of_eq t.isLt N_1
  obtain ⟨-, -, -, -, -, -, -, -, -, -, e0, e1⟩ := idx_facts t
  have hr : (⟨2000 * t.val + p.val, by have := p.isLt; omega⟩ : Fin 100000).val = 2000 * t.val + p.val := rfl
  refine (pay_apply _ _ _ _ _ p q).trans ?_
  rw [View.read_apply]
  have hemb : lay (V c main_v45) (V c main_v26) (V c main_v46) (V c main_v47) (V c main_v48) (((cfg1.win 5).blk t).view.emb (ix2 p q))
      = layAt (V c main_v45) (V c main_v26) (V c main_v46) (V c main_v47) (V c main_v48) ⟨2000 * t.val + p.val, by have := p.isLt; omega⟩ q := by
    unfold lay
    congr 1 <;> apply Fin.ext
    · show win1_5.index t (0 : Fin 2) * 2000 + 1 * p.val = 2000 * t.val + p.val; rw [e0]; omega
    · show win1_5.index t (1 : Fin 2) * 64 + 1 * q.val = q.val; rw [e1]; omega
  refine Eq.trans ?_ hemb.symm
  unfold layAt
  refine congrArg₂ (· + ·) (congrArg₂ (· + ·) (Finset.sum_congr rfl fun k _ => ?_) (Finset.sum_congr rfl fun k _ => ?_)) ?_
  · exact congrArg₂ (· * ·) (iblk_0 V c t p k _ hr) (iblk_2 V c t k q)
  · exact congrArg₂ (· * ·) (iblk_1 V c t p k _ hr) (iblk_3 V c t k q)
  · exact iblk_4 V c t q

/-- The 50 blocks of 2000 rows tile the result array. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, -, -, -, -, -, -, -, e0, e1⟩ := idx_facts t
  refine ⟨t, flush1_5 t, ?_⟩
  show i ∈ ((View.whole main_v49).slice (win1_5.rect t)).set
  rw [View.set_slice_whole, Rect.mem_set_unit]
  intro a
  match a with
  | ⟨0, _⟩ => show win1_5.index t (0 : Fin 2) * 2000 ≤ (i 0).val ∧ (i 0).val < win1_5.index t (0 : Fin 2) * 2000 + 2000; rw [e0, ht]; omega
  | ⟨1, _⟩ => show win1_5.index t (1 : Fin 2) * 64 ≤ (i 1).val ∧ (i 1).val < win1_5.index t (1 : Fin 2) * 64 + 64; rw [e1]; omega

/-- THE RESULT ARRAY after the region: `lay` of the five arrays the region found. -/
theorem final (c : Dev nD) : (dat1 V c).arrAt 5 cfg1.N
    = lay (V c main_v45) (V c main_v26) (V c main_v46) (V c main_v47) (V c main_v48) :=
  (dat1 V c).arrAt_eq_of_cover 5 _ (fun t _ => flushed_eq V c t) cover

end Reads

end Cert.KernelIdeal.Layer2

end
-- ==== Proof.HostK.lean ====
/-
  The host stretches of the kernel's program, read as values (at any float instance).
  Both stretches compute the same NEIGHBOUR MEAN of a [100000, 128] array `x` along the edge list: the rows of `x` at the
  edges' source nodes (a negative source index counted from the end, as jnp indexing does) are added up per destination node,
  and each node's sum is divided by its in-degree, at least one. That chain is named ONCE here (`agg`), over the source and
  destination rows of the edge array (`srcOf`, `dstOf`), and never opened: both programs apply it, so the certificate only
  needs the values going in.
  Stated here: what the first region finds in its five operand arrays (`V1_…`: the neighbour mean of the features, the
  features, the two transposed weights, the bias as a row), and what the second region finds (`V3_…`: the same chain applied
  to whatever the first region left in its result array, that array itself, the second layer's transposed weights and bias row).
-/
import proofs.«129132_j58969900974302_1_alg».proof.Proof.Gen.KernelIdeal.Frame
import Idealize.ShloMosaic.Lib.StableHlo.Run

set_option maxRecDepth 16384

noncomputable section

namespace Cert.KernelIdeal.HostVals

open Cert.KernelIdeal Cert.KernelIdeal.Gen
open Idealize.ShloMosaic Idealize.ShloMosaic.TcCoe Idealize.SL.Sem Idealize.ShloMosaic.StableHlo

variable {F : FTy → Type} [FloatOps F]

/-- The edges' source nodes: row 0 of the edge array. -/
def srcOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The edges' destination nodes: row 1 of the edge array. -/
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The neighbour mean of `x` along the edges `src → dst`: per destination node the sum of the source rows, over the
    node's in-degree or one. -/
def agg (x : (⟨S100000x128, .f32⟩ : BufTy).Contents (Elt F)) (src dst : (⟨S1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 dst)
            (broadcastInDim S1600000 ![] bcast_S_S1600000 (constant S_ .f32 0x3F800000#32)))
          (broadcastInDim S100000 ![] bcast_S_S100000 (constant S_ .f32 0x3F800000#32)))))

variable (m : (ℓ : Loc nD τ sig) → Buf (Elt F) ℓ) (ρ : Dev nD → PrngReg)

/-! ## What the first region finds -/

theorem V1_v1 (c : Dev nD) : V1 m ρ c main_v1 = srcOf (m ((c : Thread nD τ).loc main_arg1)) := by
  show StableHlo.after hostOps0 (W0 m ρ c) (Proc.devRef .tc main_v1) = _
  after_results_simp
  rfl

theorem V1_v3 (c : Dev nD) : V1 m ρ c main_v3 = dstOf (m ((c : Thread nD τ).loc main_arg1)) := by
  show StableHlo.after hostOps0 (W0 m ρ c) (Proc.devRef .tc main_v3) = _
  after_results_simp
  rfl

theorem V1_v22 (c : Dev nD) : V1 m ρ c main_v22
    = agg (m ((c : Thread nD τ).loc main_arg0)) (srcOf (m ((c : Thread nD τ).loc main_arg1))) (dstOf (m ((c : Thread nD τ).loc main_arg1))) := by
  show StableHlo.after hostOps0 (W0 m ρ c) (Proc.devRef .tc main_v22) = _
  after_results_simp
  rfl

theorem V1_arg0 (c : Dev nD) : V1 m ρ c main_arg0 = m ((c : Thread nD τ).loc main_arg0) := by
  show StableHlo.after hostOps0 (W0 m ρ c) (Proc.devRef .tc main_arg0) = _
  after_results_simp

theorem V1_v23 (c : Dev nD) : V1 m ρ c main_v23
    = transpose S128x128 [1, 0] (m ((c : Thread nD τ).loc main_arg2)) transposes_S128x128_S128x128_1_0 := by
  show StableHlo.after hostOps0 (W0 m ρ c) (Proc.devRef .tc main_v23) = _
  after_results_simp

theorem V1_v24 (c : Dev nD) : V1 m ρ c main_v24
    = transpose S128x128 [1, 0] (m ((c : Thread nD τ).loc main_arg4)) transposes_S128x128_S128x128_1_0 := by
  show StableHlo.after hostOps0 (W0 m ρ c) (Proc.devRef .tc main_v24) = _
  after_results_simp

theorem V1_v25 (c : Dev nD) : V1 m ρ c main_v25
    = shapeCast _ (m ((c : Thread nD τ).loc main_arg3)) shapeCasts_S128_S1x128 := by
  show StableHlo.after hostOps0 (W0 m ρ c) (Proc.devRef .tc main_v25) = _
  after_results_simp
  rfl

/-! ## What the second region finds

The first region changes only its own result array; the second stretch reads that array, the edges' two rows (computed by
the first stretch and untouched since) and three arguments. -/

theorem W2_v1 (c : Dev nD) : W2 m ρ c (Proc.devRef .tc main_v1) = srcOf (m ((c : Thread nD τ).loc main_arg1)) :=
  (W2_of_ne m ρ c main_v1 (by decide)).trans (V1_v1 m ρ c)

theorem W2_v3 (c : Dev nD) : W2 m ρ c (Proc.devRef .tc main_v3) = dstOf (m ((c : Thread nD τ).loc main_arg1)) :=
  (W2_of_ne m ρ c main_v3 (by decide)).trans (V1_v3 m ρ c)

theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results_simp)

theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp)

theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp)

theorem V3_v45 (c : Dev nD) : V3 m ρ c main_v45
    = agg (W2 m ρ c (Proc.devRef .tc main_v26)) (srcOf (m ((c : Thread nD τ).loc main_arg1))) (dstOf (m ((c : Thread nD τ).loc main_arg1))) := by
  rw [← W2_v1 m ρ c, ← W2_v3 m ρ c]
  show StableHlo.after hostOps1 (W2 m ρ c) (Proc.devRef .tc main_v45) = _
  after_results_simp
  rfl

theorem V3_v26 (c : Dev nD) : V3 m ρ c main_v26 = W2 m ρ c (Proc.devRef .tc main_v26) := by
  show StableHlo.after hostOps1 (W2 m ρ c) (Proc.devRef .tc main_v26) = _
  after_results_simp

theorem V3_v46 (c : Dev nD) : V3 m ρ c main_v46
    = transpose S128x64 [1, 0] (m ((c : Thread nD τ).loc main_arg5)) transposes_S64x128_S128x64_1_0 := by
  rw [← W2_arg5 m ρ c]
  show StableHlo.after hostOps1 (W2 m ρ c) (Proc.devRef .tc main_v46) = _
  after_results_simp

theorem V3_v47 (c : Dev nD) : V3 m ρ c main_v47
    = transpose S128x64 [1, 0] (m ((c : Thread nD τ).loc main_arg7)) transposes_S64x128_S128x64_1_0 := by
  rw [← W2_arg7 m ρ c]
  show StableHlo.after hostOps1 (W2 m ρ c) (Proc.devRef .tc main_v47) = _
  after_results_simp

theorem V3_v48 (c : Dev nD) : V3 m ρ c main_v48
    = shapeCast _ (m ((c : Thread nD τ).loc main_arg6)) shapeCasts_S64_S1x64 := by
  rw [← W2_arg6 m ρ c]
  show StableHlo.after hostOps1 (W2 m ρ c) (Proc.devRef .tc main_v48) = _
  after_results_simp
  rfl

end Cert.KernelIdeal.HostVals

end
-- ==== Proof.KValue.lean ====
/-
  The kernel's result as one function of the eight arguments.
  After the second region its result array holds the second layer (`Layer2.lay`) of what that region found; the region
  found the neighbour mean of the hidden features, the hidden features, and the second layer's transposed weights and bias
  row; the hidden features are what the first region left: the first layer (`Layer1.lay`, with the rectifier) of the
  neighbour mean of the input features, the input features, the first layer's transposed weights and bias row. Composed:
  `kres`, and the run of @main with the result array at `kres` of the launch arguments (`run`).
-/
import proofs.«129132_j58969900974302_1_alg».proof.Proof.RunResult
import proofs.«129132_j58969900974302_1_alg».proof.Proof.Region0
import proofs.«129132_j58969900974302_1_alg».proof.Proof.Region1
import proofs.«129132_j58969900974302_1_alg».proof.Proof.HostK

set_option maxRecDepth 16384

noncomputable section

namespace Cert.KernelIdeal.KValue

open Cert.KernelIdeal Cert.KernelIdeal.Gen Cert.KernelIdeal.HostVals
open Idealize.ShloMosaic Idealize.ShloMosaic.TcCoe Idealize.SL.Sem

/-- The hidden features: the first layer of the input features and their neighbour mean. -/
def hidden (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) : (⟨S100000x128, .f32⟩ : BufTy).Contents (Elt Ideal) :=
  Layer1.lay (agg x0 (srcOf x1) (dstOf x1)) x0
    (transpose S128x128 [1, 0] x2 transposes_S128x128_S128x128_1_0) (transpose S128x128 [1, 0] x4 transposes_S128x128_S128x128_1_0)
    (shapeCast S1x128 x3 shapeCasts_S128_S1x128)

/-- The result: the second layer of the hidden features and their neighbour mean. -/
def kres (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S64x128, .f32⟩ : BufTy).Contents (Elt Ideal))
    (x6 : (⟨S64, .f32⟩ : BufTy).Contents (Elt Ideal)) (x7 : (⟨S64x128, .f32⟩ : BufTy).Contents (Elt Ideal)) :
    (⟨S100000x64, .f32⟩ : BufTy).Contents (Elt Ideal) :=
  Layer2.lay (agg (hidden x0 x1 x2 x3 x4) (srcOf x1) (dstOf x1)) (hidden x0 x1 x2 x3 x4)
    (transpose S128x64 [1, 0] x5 transposes_S64x128_S128x64_1_0) (transpose S128x64 [1, 0] x7 transposes_S64x128_S128x64_1_0)
    (shapeCast S1x64 x6 shapeCasts_S64_S1x64)

variable (m : (ℓ : Loc nD τ sig) → Buf (Elt Ideal) ℓ) (ρ : Dev nD → PrngReg)

/-- What the first region leaves in its result array: the hidden features of the launch arguments. -/
theorem W2_v26 (c : Dev nD) : W2 m ρ c (Proc.devRef .tc main_v26)
    = hidden (m ((c : Thread nD τ).loc main_arg0)) (m ((c : Thread nD τ).loc main_arg1)) (m ((c : Thread nD τ).loc main_arg2))
        (m ((c : Thread nD τ).loc main_arg3)) (m ((c : Thread nD τ).loc main_arg4)) := by
  refine (W2_arr m ρ c 5).trans ?_
  rw [Layer1.final (V1 m ρ) c, V1_v22, V1_arg0, V1_v23, V1_v24, V1_v25]
  rfl

/-- What the second region leaves in the result array: `kres` of the launch arguments. -/
theorem result_eq (c : Dev nD) : W4 m ρ c (Proc.devRef .tc main_v49)
    = kres (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W4_arr m ρ c 5).trans ?_
  rw [Layer2.final (V3 m ρ) c, V3_v45, V3_v26, V3_v46, V3_v47, V3_v48, W2_v26]
  rfl

/-- The run of @main, read: the result array at `kres` of the launch arguments, the arguments unchanged. -/
theorem run : θ_run defs (onTc (τ := τ) (main (F := Ideal))) ⟨m, fun _ => 0, ρ⟩ (fun r => ∀ c : Dev nD,
      r.2.mem ((c.tc : Thread nD τ).loc main_v49)
        = kres (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.GenR.run_result m ρ)

end Cert.KernelIdeal.KValue

end
-- ==== Proof.RefBridge.lean ====
/-
  The reference's stages are the kernel's layer functions.
  The reference computes each layer as `(mean · Wlᵀ + b) + x · Wrᵀ` with whole-array products, the kernel as
  `(mean · Wlᵀ + x · Wrᵀ) + b` block by block; on the extended reals addition is commutative and associative, so the
  two agree index by index (`add_right_comm`), the rectifier of the first layer being the same maximum with zero on both
  sides. The neighbour mean is the same chain of host operations in both programs and is carried as the one function
  `agg` (`mean1_eq`, `mean2_eq`: at any float instance, by unfolding names only).
  Result: the reference's composed term is the kernel-side function `kres` of the eight arguments (`ref_eq`).
-/
import proofs.«129132_j58969900974302_1_alg».proof.Proof.Gen.ReferenceIdeal.Read
import proofs.«129132_j58969900974302_1_alg».proof.Proof.Region0
import proofs.«129132_j58969900974302_1_alg».proof.Proof.Region1
import proofs.«129132_j58969900974302_1_alg».proof.Proof.HostK
import proofs.«129132_j58969900974302_1_alg».proof.Proof.KValue

set_option maxRecDepth 16384

noncomputable section

namespace Cert.Bridge

open Idealize.ShloMosaic Idealize.ShloMosaic.TcCoe Idealize.ShloMosaic.ValueIdx
open Cert.KernelIdeal.HostVals (agg srcOf dstOf)
open Cert.ReferenceIdeal Cert.ReferenceIdeal.Read

/-! ## The neighbour mean is one chain in both programs (any float instance) -/

section Generic
variable {F : FTy → Type} [FloatOps F]

theorem mean1_eq (x0 : (⟨S100000x128, .f32⟩ : BufTy).Contents (Elt F)) (x1 : (⟨S2x1600000, .i32⟩ : BufTy).Contents (Elt F)) :
    val_main_v22 (F := F) x0 x1 = agg x0 (srcOf x1) (dstOf x1) := rfl

theorem mean2_eq (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F)) (x4 : (⟨S128x128, .f32⟩ : BufTy).Contents (Elt F)) :
    val_main_v50 (F := F) x0 x1 x2 x3 x4 = agg (val_main_v31 (F := F) x0 x1 x2 x3 x4) (srcOf x1) (dstOf x1) := rfl

end Generic

/-! ## The reference's products and bias rows at an index -/

/-- The first layer's whole-array product at row `r`, column `q`. -/
theorem dot1_apply (M : FVec Ideal S100000x128 .f32) (W : FVec Ideal S128x128 .f32) (r : Fin 100000) (q : Fin 128) :
    Host.dotGeneral dot_S100000x128_S128x128_S100000x128_1_0_0_1_n_n none M W (ix2 r q) = ∑ k : Fin 128, M (ix2 r k) * W (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 r q) ((ValueIdx.contrEquiv1 dot_S100000x128_S128x128_S100000x128_1_0_0_1_n_n 128 rfl rfl).symm k) = ix2 r k := funext fun a => Fin.ext (by
    match a with
    | ⟨0, _⟩ => exact lhs_main_v24_0 _ _
    | ⟨1, _⟩ => exact (lhs_main_v24_1 _ _).trans hk)
  have er : dot_S100000x128_S128x128_S100000x128_1_0_0_1_n_n.rhsIdx (ix2 r q) ((ValueIdx.contrEquiv1 dot_S100000x128_S128x128_S100000x128_1_0_0_1_n_n 128 rfl rfl).symm k) = ix2 k q := funext fun a => Fin.ext (by
    match a with
    | ⟨0, _⟩ => exact (rhs_main_v24_0 _ _).trans hk
    | ⟨1, _⟩ => exact rhs_main_v24_1 _ _)
  rw [el, er]

/-- The second layer's whole-array product at row `r`, column `q`. -/
theorem dot2_apply (M : FVec Ideal S100000x128 .f32) (W : FVec Ideal S128x64 .f32) (r : Fin 100000) (q : Fin 64) :
    Host.dotGeneral dot_S100000x128_S128x64_S100000x64_1_0_0_1_n_n none M W (ix2 r q) = ∑ k : Fin 128, M (ix2 r k) * W (ix2 k q) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx (ix2 r q) ((ValueIdx.contrEquiv1 dot_S100000x128_S128x64_S100000x64_1_0_0_1_n_n 128 rfl rfl).symm k) = ix2 r k := funext fun a => Fin.ext (by
    match a with
    | ⟨0, _⟩ => exact lhs_main_v52_0 _ _
    | ⟨1, _⟩ => exact (lhs_main_v52_1 _ _).trans hk)
  have er : dot_S100000x128_S128x64_S100000x64_1_0_0_1_n_n.rhsIdx (ix2 r q) ((ValueIdx.contrEquiv1 dot_S100000x128_S128x64_S100000x64_1_0_0_1_n_n 128 rfl rfl).symm k) = ix2 k q := funext fun a => Fin.ext (by
    match a with
    | ⟨0, _⟩ => exact (rhs_main_v52_0 _ _).trans hk
    | ⟨1, _⟩ => exact rhs_main_v52_1 _ _)
  rw [el, er]

/-- The reference's first bias, spread over the rows, at row `r`, column `q`. -/
theorem bias1_ref (b : FVec Ideal S128 .f32) (r : Fin 100000) (q : Fin 128) : val_main_v26 (F := Ideal) b (ix2 r q) = b (ix1 q) := by
  rw [val_main_v26_apply, val_main_v25_apply]
  exact congrArg b (funext fun a => Fin.ext (by match a with | ⟨0, _⟩ => rfl))

/-- The kernel's first bias, viewed as a row, at column `q`. -/
theorem bias1_ker (b : FVec Ideal S128 .f32) (q : Fin 128) :
    shapeCast Cert.KernelIdeal.S1x128 b Cert.KernelIdeal.Gen.shapeCasts_S128_S1x128 (ix2 0 q) = b (ix1 q) :=
  shapeCast_apply b Cert.KernelIdeal.Gen.shapeCasts_S128_S1x128 (ix2 0 q) (ix1 q) (by
    rw [Shape.rowMajor_val_one, Shape.rowMajor_val_two]
    show q.val = 0 * 128 + q.val
    omega)

/-- The reference's second bias, spread over the rows, at row `r`, column `q`. -/
theorem bias2_ref (b : FVec Ideal S64 .f32) (r : Fin 100000) (q : Fin 64) : val_main_v54 (F := Ideal) b (ix2 r q) = b (ix1 q) := by
  rw [val_main_v54_apply, val_main_v53_apply]
  exact congrArg b (funext fun a => Fin.ext (by match a with | ⟨0, _⟩ => rfl))

/-- The kernel's second bias, viewed as a row, at column `q`. -/
theorem bias2_ker (b : FVec Ideal S64 .f32) (q : Fin 64) :
    shapeCast Cert.KernelIdeal.S1x64 b Cert.KernelIdeal.Gen.shapeCasts_S64_S1x64 (ix2 0 q) = b (ix1 q) :=
  shapeCast_apply b Cert.KernelIdeal.Gen.shapeCasts_S64_S1x64 (ix2 0 q) (ix1 q) (by
    rw [Shape.rowMajor_val_one, Shape.rowMajor_val_two]
    show q.val = 0 * 64 + q.val
    omega)

/-- The constant the reference's rectifier compares with is the kernel's zero word. -/
theorem zero_ref (i : S100000x128.Idx) : val_main_call0_v0 (F := Ideal) i = Ideal.ofBits .f32 0x00000000#32 := by
  rw [val_main_call0_v0_apply]
  rfl

/-! ## The two layers -/

/-- The reference's hidden features are the kernel's first layer of the same operands. -/
theorem hidden_eq (x0 : FVec Ideal S100000x128 .f32) (x1 : (⟨S2x1600000, .i32⟩ : BufTy).Contents (Elt Ideal))
    (x2 : FVec Ideal S128x128 .f32) (x3 : FVec Ideal S128 .f32) (x4 : FVec Ideal S128x128 .f32) :
    val_main_v31 (F := Ideal) x0 x1 x2 x3 x4
      = Cert.KernelIdeal.Layer1.lay (val_main_v22 (F := Ideal) x0 x1) x0 (val_main_v23 (F := Ideal) x2) (val_main_v28 (F := Ideal) x4)
          (shapeCast Cert.KernelIdeal.S1x128 x3 Cert.KernelIdeal.Gen.shapeCasts_S128_S1x128) := by
  funext i
  obtain ⟨r, q, rfl⟩ : ∃ (r : Fin 100000) (q : Fin 128), i = ix2 r q := ⟨i 0, i 1, eq_ix2 i⟩
  rw [val_main_v31_apply, val_main_v30_apply, val_main_v27_apply, zero_ref, bias1_ref]
  unfold val_main_v24 val_main_v29
  rw [dot1_apply, dot1_apply]
  show max ((_ + _) + _) _ = max ((_ + _) + _) _
  rw [bias1_ker, add_right_comm]

/-- The reference's result is the kernel's second layer of the same operands. -/
theorem out_eq (x0 : FVec Ideal S100000x128 .f32) (x1 : (⟨S2x1600000, .i32⟩ : BufTy).Contents (Elt Ideal))
    (x2 : FVec Ideal S128x128 .f32) (x3 : FVec Ideal S128 .f32) (x4 : FVec Ideal S128x128 .f32)
    (x5 : FVec Ideal S64x128 .f32) (x6 : FVec Ideal S64 .f32) (x7 : FVec Ideal S64x128 .f32) :
    val_main_v58 (F := Ideal) x0 x1 x2 x3 x4 x5 x6 x7
      = Cert.KernelIdeal.Layer2.lay (val_main_v50 (F := Ideal) x0 x1 x2 x3 x4) (val_main_v31 (F := Ideal) x0 x1 x2 x3 x4)
          (val_main_v51 (F := Ideal) x5) (val_main_v56 (F := Ideal) x7)
          (shapeCast Cert.KernelIdeal.S1x64 x6 Cert.KernelIdeal.Gen.shapeCasts_S64_S1x64) := by
  funext i
  obtain ⟨r, q, rfl⟩ : ∃ (r : Fin 100000) (q : Fin 64), i = ix2 r q := ⟨i 0, i 1, eq_ix2 i⟩
  rw [val_main_v58_apply, val_main_v55_apply, bias2_ref]
  unfold val_main_v52 val_main_v57
  rw [dot2_apply, dot2_apply]
  show (_ + _) + _ = (_ + _) + _
  rw [bias2_ker, add_right_comm]

/-! ## The reference's result is the kernel-side function of the arguments -/

theorem ref_eq (x0 : FVec Ideal S100000x128 .f32) (x1 : (⟨S2x1600000, .i32⟩ : BufTy).Contents (Elt Ideal))
    (x2 : FVec Ideal S128x128 .f32) (x3 : FVec Ideal S128 .f32) (x4 : FVec Ideal S128x128 .f32)
    (x5 : FVec Ideal S64x128 .f32) (x6 : FVec Ideal S64 .f32) (x7 : FVec Ideal S64x128 .f32) :
    val_main_v58 (F := Ideal) x0 x1 x2 x3 x4 x5 x6 x7 = Cert.KernelIdeal.KValue.kres x0 x1 x2 x3 x4 x5 x6 x7 := by
  rw [out_eq, mean2_eq, hidden_eq, mean1_eq]
  rfl

end Cert.Bridge

end
-- ==== Proof.lean ====
/-
  The certificate of a two-layer neighbour-mean graph network over 100000 nodes and 1.6 million edges.
  Each layer takes, per node, the mean of its in-neighbours' rows (gathered along the edge list and added per
  destination node on the host, divided by the in-degree or one), and combines it with the node's own row:
  `mean · Wlᵀ + b + x · Wrᵀ`, with a rectifier after the first layer. The kernel's program does the two dense products and
  the bias of each layer in one pipelined region over 50 blocks of 2000 rows, adding the two products first and the bias
  last; the reference adds the bias to the first product and then the second product, with whole-array products.
  At the ideal instance floats are extended reals, a change of float format is the identity and a product summed into
  a zero accumulator is the plain sum, so both programs compute, index by index, the same sums; the two orders of the three
  summands agree because addition of extended reals is commutative and associative. No finiteness of the inputs is used.
  The three frames: the kernel programs' by their generated frame certificates, the reference's by its generated run.
  `preserves` has no entry. `algebraic`: the kernel's run ends with the result at `kres` of the arguments (KValue.lean, over
  the two regions' values, Region0.lean and Region1.lean, and the host stretches, HostK.lean), the reference's at its composed
  term, which is `kres` of the same arguments (RefBridge.lean).
-/
import proofs.«129132_j58969900974302_1_alg».proof.Defs
import proofs.«129132_j58969900974302_1_alg».proof.Proof.Gen.Kernel
import proofs.«129132_j58969900974302_1_alg».proof.Proof.Gen.Kernel.Frame
import proofs.«129132_j58969900974302_1_alg».proof.Proof.Gen.KernelIdeal
import proofs.«129132_j58969900974302_1_alg».proof.Proof.Gen.KernelIdeal.Frame
import proofs.«129132_j58969900974302_1_alg».proof.Proof.Gen.ReferenceIdeal
import proofs.«129132_j58969900974302_1_alg».proof.Proof.Gen.ReferenceIdeal.Run
import proofs.«129132_j58969900974302_1_alg».proof.Proof.Gen.ReferenceIdeal.Read
import proofs.«129132_j58969900974302_1_alg».proof.Proof.Gen.Pre_finite_inputs
import proofs.«129132_j58969900974302_1_alg».proof.Proof.KValue
import proofs.«129132_j58969900974302_1_alg».proof.Proof.RefBridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result at `kres` of the arguments: the kernel's by its two regions and host stretches read as
    values, the reference's because its composed term is that function of arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v58_eq, Cert.Bridge.ref_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
